-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x9216x4096 : Shape := ⟨3, ![1, 9216, 4096]⟩
abbrev S_ : Shape := ⟨0, ![]⟩

class Facts : Prop where
  bcast_S_S1x9216x4096 : S_.BroadcastsInDim S1x9216x4096 (![] : Fin 0 → Fin S1x9216x4096.rank)
  reducesTo_S1x9216x4096_S_d0_1_2 : S1x9216x4096.ReducesTo [0, 1, 2] S_
  h_S_ : 0 < S_.numel

variable [Facts]

def fn {F : FTy → Type} [FloatOps F] (main_arg0 : FVec F S1x9216x4096 .f32) : IVec S_ 1 :=
  let main_v0 : FVec F S1x9216x4096 .f32 := Host.absf main_arg0
  let main_cst : FVec F S_ .f32 := constant S_ .f32 0x7F800000#32
  let main_v1 : FVec F S1x9216x4096 .f32 := broadcastInDim S1x9216x4096 ![] bcast_S_S1x9216x4096 main_cst
  let main_v2 : IVec S1x9216x4096 1 := cmpf .olt main_v0 main_v1
  let main_c : IVec S_ 1 := constantI S_ 1 1#1
  let main_v3 : IVec S_ 1 := (fun x v => Host.reduce IntOp.andi x v reducesTo_S1x9216x4096_S_d0_1_2 h_S_) main_v2 main_c
  main_v3
-- ==== Kernel.lean ====
abbrev S1x9216x4096 : Shape := ⟨3, ![1, 9216, 4096]⟩
abbrev S36x1048576 : Shape := ⟨2, ![36, 1048576]⟩
abbrev S36x36 : Shape := ⟨2, ![36, 36]⟩
abbrev S36x32768 : Shape := ⟨2, ![36, 32768]⟩
abbrev S36 : Shape := ⟨1, ![36]⟩
abbrev S36x1 : Shape := ⟨2, ![36, 1]⟩
abbrev S1x36x1048576 : Shape := ⟨3, ![1, 36, 1048576]⟩

abbrev nBuf : Space → Nat
  | .hbm => 5
  | .vmem => 9
  | .smem => 0
  | _ => 0

abbrev bufTy : (tb : Table) → Fin (tcTables nBuf tb) → BufTy
  | .hbm, ⟨0, _⟩ => ⟨S1x9216x4096, .f32⟩
  | .hbm, ⟨1, _⟩ => ⟨S36x1048576, .f32⟩
  | .hbm, ⟨2, _⟩ => ⟨S36x36, .f32⟩
  | .hbm, ⟨3, _⟩ => ⟨S36x1048576, .f32⟩
  | .hbm, ⟨4, _⟩ => ⟨S1x36x1048576, .f32⟩
  | .local _ .vmem, ⟨0, _⟩ => ⟨S36x32768, .f32⟩
  | .local _ .vmem, ⟨1, _⟩ => ⟨S36x32768, .f32⟩
  | .local _ .vmem, ⟨2, _⟩ => ⟨S36x36, .f32⟩
  | .local _ .vmem, ⟨3, _⟩ => ⟨S36x36, .f32⟩
  | .local _ .vmem, ⟨4, _⟩ => ⟨S36x36, .f32⟩
  | .local _ .vmem, ⟨5, _⟩ => ⟨S36x32768, .f32⟩
  | .local _ .vmem, ⟨6, _⟩ => ⟨S36x32768, .f32⟩
  | .local _ .vmem, ⟨7, _⟩ => ⟨S36x32768, .f32⟩
  | .local _ .vmem, ⟨8, _⟩ => ⟨S36x32768, .f32⟩
  | _, _ => ⟨S1x9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v12 : BitVec 1 := Scalar.cmpi .eq arg0 c31_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S36x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S36x36 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S36x36 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S36x32768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S36x32768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S1x9216x4096_S36x1048576 : S1x9216x4096.ShapeCasts S36x1048576
  inb_S36x36_S36x36_0_0 : ∀ a, (![0, 0] : Fin 2 → Nat) a + S36x36.size a ≤ S36x36.size a
  h_S36x36 : 0 < S36x36.numel
  shapeCasts_S36x36_S36x36 : S36x36.ShapeCasts S36x36
  inb_S36x32768_S36x32768_0_0 : ∀ a, (![0, 0] : Fin 2 → Nat) a + S36x32768.size a ≤ S36x32768.size a
  h_S36x32768 : 0 < S36x32768.numel
  shapeCasts_S36x32768_S36x32768 : S36x32768.ShapeCasts S36x32768
  bitsLt_bf16_f32 : FTy.bits .bf16 < FTy.bits .f32
  reduces_S36x36_S36 : S36x36.Reduces [1] S36
  shapeCasts_S36_S36x1 : S36.ShapeCasts S36x1
  broadcasts_S36x1_S36x36 : S36x1.Broadcasts S36x36
  shapeCasts_S36x1048576_S1x36x1048576 : S36x1048576.ShapeCasts S1x36x1048576
  dot_S36x32768_S36x32768_S36x36_1_1_0_0_n_n_wf : DotDims.WF S36x32768 S36x32768 S36x36 [1] [1] [0] [0] [] []
  dot_S36x36_S36x32768_S36x32768_1_0_0_1_n_n_wf : DotDims.WF S36x36 S36x32768 S36x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S36x32768.size a ≤ S36x1048576.size a
  hwx0_0 : ∀ i : grid0.Coords, EltTy.bits .f32 = 32 ∨ (Rect.block (s := S36x1048576) S36x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S36x36.size a ≤ S36x36.size a
  hwx0_1 : ∀ i : grid0.Coords, EltTy.bits .f32 = 32 ∨ (Rect.block (s := S36x36) S36x36.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S36x36.size a ≤ S36x36.size a
  hwx1_0 : ∀ i : grid1.Coords, EltTy.bits .f32 = 32 ∨ (Rect.block (s := S36x36) S36x36.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S36x32768.size a ≤ S36x1048576.size a
  hwx1_1 : ∀ i : grid1.Coords, EltTy.bits .f32 = 32 ∨ (Rect.block (s := S36x1048576) S36x32768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S36x32768.size a ≤ S36x1048576.size a
  hwx1_2 : ∀ i : grid1.Coords, EltTy.bits .f32 = 32 ∨ (Rect.block (s := S36x1048576) S36x32768.size (cc1_transform_2 i) (hinb1_2 i)).WholeWords (EltTy.packing .f32)

variable [Facts₀]

def dot_S36x32768_S36x32768_S36x36_1_1_0_0_n_n : DotDims S36x32768 S36x32768 S36x36 where
  lhsContracting := [1]
  rhsContracting := [1]
  lhsNonContracting := [0]
  rhsNonContracting := [0]
  lhsBatch := []
  rhsBatch := []
  wf := dot_S36x32768_S36x32768_S36x36_1_1_0_0_n_n_wf
def dot_S36x36_S36x32768_S36x32768_1_0_0_1_n_n : DotDims S36x36 S36x32768 S36x32768 where
  lhsContracting := [1]
  rhsContracting := [0]
  lhsNonContracting := [0]
  rhsNonContracting := [1]
  lhsBatch := []
  rhsBatch := []
  wf := dot_S36x36_S36x32768_S36x32768_1_0_0_1_n_n_wf

abbrev win0_0 : Pipeline.Window sig grid0 :=
  Pipeline.Window.ofSpec (Memref.whole main_v0) S36x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S36x36.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v1) S36x36.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S36x32768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S36x32768.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x9216x4096 : Shape := ⟨3, ![1, 9216, 4096]⟩
abbrev S1x36x1048576 : Shape := ⟨3, ![1, 36, 1048576]⟩
abbrev S1x36x36 : Shape := ⟨3, ![1, 36, 36]⟩
abbrev S_ : Shape := ⟨0, ![]⟩
abbrev S1x36 : Shape := ⟨2, ![1, 36]⟩
abbrev S1x36x1 : Shape := ⟨3, ![1, 36, 1]⟩
abbrev S36x36 : Shape := ⟨2, ![36, 36]⟩
abbrev S36x1048576 : Shape := ⟨2, ![36, 1048576]⟩

abbrev nBuf : Space → Nat
  | .hbm => 28
  | .vmem => 0
  | .smem => 0
  | _ => 0

abbrev bufTy : (tb : Table) → Fin (tcTables nBuf tb) → BufTy
  | .hbm, ⟨0, _⟩ => ⟨S1x9216x4096, .f32⟩
  | .hbm, ⟨1, _⟩ => ⟨S1x36x1048576, .f32⟩
  | .hbm, ⟨2, _⟩ => ⟨S1x36x36, .f32⟩
  | .hbm, ⟨3, _⟩ => ⟨S1x36x36, .f32⟩
  | .hbm, ⟨4, _⟩ => ⟨S_, .f32⟩
  | .hbm, ⟨5, _⟩ => ⟨S1x36x36, .f32⟩
  | .hbm, ⟨6, _⟩ => ⟨S1x36x36, .f32⟩
  | .hbm, ⟨7, _⟩ => ⟨S_, .f32⟩
  | .hbm, ⟨8, _⟩ => ⟨S1x36, .f32⟩
  | .hbm, ⟨9, _⟩ => ⟨S_, .f32⟩
  | .hbm, ⟨10, _⟩ => ⟨S1x36, .f32⟩
  | .hbm, ⟨11, _⟩ => ⟨S1x36, .f32⟩
  | .hbm, ⟨12, _⟩ => ⟨S1x36x1, .f32⟩
  | .hbm, ⟨13, _⟩ => ⟨S1x36x36, .f32⟩
  | .hbm, ⟨14, _⟩ => ⟨S1x36x36, .f32⟩
  | .hbm, ⟨15, _⟩ => ⟨S1x36x36, .f32⟩
  | .hbm, ⟨16, _⟩ => ⟨S_, .f32⟩
  | .hbm, ⟨17, _⟩ => ⟨S1x36, .f32⟩
  | .hbm, ⟨18, _⟩ => ⟨S1x36x1, .f32⟩
  | .hbm, ⟨19, _⟩ => ⟨S1x36x36, .f32⟩
  | .hbm, ⟨20, _⟩ => ⟨S1x36x36, .f32⟩
  | .hbm, ⟨21, _⟩ => ⟨S_, .f32⟩
  | .hbm, ⟨22, _⟩ => ⟨S1x36x36, .f32⟩
  | .hbm, ⟨23, _⟩ => ⟨S1x36x36, .f32⟩
  | .hbm, ⟨24, _⟩ => ⟨S36x36, .f32⟩
  | .hbm, ⟨25, _⟩ => ⟨S36x1048576, .f32⟩
  | .hbm, ⟨26, _⟩ => ⟨S36x1048576, .f32⟩
  | .hbm, ⟨27, _⟩ => ⟨S1x36x1048576, .f32⟩
  | _, _ => ⟨S1x9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]

class Facts₀ : Prop where
  shapeCasts_S1x9216x4096_S1x36x1048576 : S1x9216x4096.ShapeCasts S1x36x1048576
  transposes_S1x36x36_S1x36x36_0_2_1 : S1x36x36.Transposes [0, 2, 1] S1x36x36
  bcast_S_S1x36x36 : S_.BroadcastsInDim S1x36x36 (![] : Fin 0 → Fin S1x36x36.rank)
  reducesTo_S1x36x36_S1x36_d2 : S1x36x36.ReducesTo [2] S1x36
  h_S_ : 0 < S_.numel
  bcast_S_S1x36 : S_.BroadcastsInDim S1x36 (![] : Fin 0 → Fin S1x36.rank)
  bcast_S1x36_S1x36x1_0_1 : S1x36.BroadcastsInDim S1x36x1 (![0, 1] : Fin 2 → Fin S1x36x1.rank)
  bcast_S1x36x1_S1x36x36_0_1_2 : S1x36x1.BroadcastsInDim S1x36x36 (![0, 1, 2] : Fin 3 → Fin S1x36x36.rank)
  shapeCasts_S1x36x36_S36x36 : S1x36x36.ShapeCasts S36x36
  shapeCasts_S1x36x1048576_S36x1048576 : S1x36x1048576.ShapeCasts S36x1048576
  bcast_S36x1048576_S1x36x1048576_1_2 : S36x1048576.BroadcastsInDim S1x36x1048576 (![1, 2] : Fin 2 → Fin S1x36x1048576.rank)
  dot_S1x36x1048576_S1x36x1048576_S1x36x36_2_2_1_1_0_0_wf : DotDims.WF S1x36x1048576 S1x36x1048576 S1x36x36 [2] [2] [1] [1] [0] [0]
  dot_S36x36_S36x1048576_S36x1048576_1_0_0_1_n_n_wf : DotDims.WF S36x36 S36x1048576 S36x1048576 [1] [0] [0] [1] [] []

variable [Facts₀]

def dot_S1x36x1048576_S1x36x1048576_S1x36x36_2_2_1_1_0_0 : DotDims S1x36x1048576 S1x36x1048576 S1x36x36 where
  lhsContracting := [2]
  rhsContracting := [2]
  lhsNonContracting := [1]
  rhsNonContracting := [1]
  lhsBatch := [0]
  rhsBatch := [0]
  wf := dot_S1x36x1048576_S1x36x1048576_S1x36x36_2_2_1_1_0_0_wf
def dot_S36x36_S36x1048576_S36x1048576_1_0_0_1_n_n : DotDims S36x36 S36x1048576 S36x1048576 where
  lhsContracting := [1]
  rhsContracting := [0]
  lhsNonContracting := [0]
  rhsNonContracting := [1]
  lhsBatch := []
  rhsBatch := []
  wf := dot_S36x36_S36x1048576_S36x1048576_1_0_0_1_n_n_wf

class Facts : Prop extends Facts₀ where

variable [Facts]
-- ==== Proof.KI.Body0.lean ====
/-
  The Gram kernel's body (region 0), run once per control case.

  At grid point k the body (i) at k = 0 resets the 36×36 accumulator held in scratch, (ii) adds to it the
  partial Gram matrix of the point's 36×32768 block, and (iii) at the last point k = 31 scales the accumulator,
  takes a row softmax, multiplies by zero and stores the result into the output window's buffer.  Three cases meet
  the grid: first (reset, no epilogue), middle (neither), last (epilogue, no reset).
-/
import proofs.«181921_j17789754540526_1_alg».proof.Proof.Gen.KernelIdeal.Launch
import proofs.«181921_j17789754540526_1_alg».proof.Proof.Gen.KernelIdeal.Skeleton
import proofs.«181921_j17789754540526_1_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch is taken: the grid coordinate is 0. -/
abbrev cond0_0 (i : grid0.Coords) : Prop :=
  (Scalar.cmpi .ne (Scalar.extui (Scalar.cmpi .eq (BitVec.ofNat 32 (i 0).val) 0#32)) 0#32) = 1#1
/-- The epilogue branch is taken: the grid coordinate is 31. -/
abbrev cond0_1 (i : grid0.Coords) : Prop := k0_cond2 i = 1#1

/-- The accumulator after the first point: the block's partial Gram matrix added to the reset value. -/
def accFirst (x : Vec F S36x32768 .f32) : Vec F S36x36 .f32 := k0_pay2 x (k0_pay1 (F := F))
/-- The accumulator after a later point, from the block and the accumulator found. -/
def accStep (x : Vec F S36x32768 .f32) (a : Vec F S36x36 .f32) : Vec F S36x36 .f32 := k0_pay2 x a
/-- What the epilogue stores into the output window's buffer at the last point. -/
def outLast (x : Vec F S36x32768 .f32) (a : Vec F S36x36 .f32) : Vec F S36x36 .f32 := k0_pay3 (accStep x a)

/-- The zero offsets, as the constant function. -/
theorem zeros2 : (![0, 0] : Fin 2 → Nat) = fun _ => 0 := funext fun a => by fin_cases a <;> rfl

/-- The rectangle of every access to a 36×36 buffer: all of it. -/
abbrev rA : Rect S36x36 := Rect.unit (s := S36x36) ![0, 0] S36x36.size inb_S36x36_S36x36_0_0
/-- The rectangle of the load of the 36×32768 block: all of it. -/
abbrev rX : Rect S36x32768 := Rect.unit (s := S36x32768) ![0, 0] S36x32768.size inb_S36x32768_S36x32768_0_0

/-- A list of stores whose last is through the whole buffer covers the buffer. -/
theorem cover_whole (w : Vec F S36x36 .f32) (L : List (View.Piece (Elt F) S36x36 .f32)) (y : S36x36.Idx) :
    ∃ p ∈ ((⟨rA, w⟩ : View.Piece (Elt F) S36x36 .f32) :: L), y ∈ p.1.set :=
  ⟨⟨rA, w⟩, List.mem_cons_self, (View.mem_set_unit_zero (S := S36x36) zeros2 inb_S36x36_S36x36_0_0 y : y ∈ rA.set)⟩

/-- A store through the whole buffer, made last, leaves its payload: whatever the buffer held and whatever was stored before. -/
theorem read_store_whole {sg : RefSig} {κ : Kind} {sp : Space} (v : View sg κ sp S36x36 .f32) (f : v.ty.Contents (Elt F))
    (w : Vec F S36x36 .f32) (L : List (View.Piece (Elt F) S36x36 .f32)) :
    v.read (Elt F) (v.writes (Elt F) f (⟨rA, w⟩ :: L)) = w := by
  rw [View.read_writes_eq_canon v f (⟨rA, w⟩ :: L) (cover_whole w L)]
  exact View.canon_cons_unit_zero (S := S36x36) zeros2 inb_S36x36_S36x36_0_0 w L

/-- A load of the whole buffer after such a store reads the payload. -/
theorem readCov_store_whole {sg : RefSig} {κ : Kind} {sp : Space} (v : View sg κ sp S36x36 .f32)
    (w : Vec F S36x36 .f32) (L : List (View.Piece (Elt F) S36x36 .f32)) :
    v.readCov (⟨rA, w⟩ :: L) rA.toLoadRect = w := by
  rw [View.readCov_eq_canon_ld v (⟨rA, w⟩ :: L) rA (cover_whole w L),
    View.canon_cons_unit_zero (S := S36x36) zeros2 inb_S36x36_S36x36_0_0 w L]
  exact View.ld_unit_zero (S := S36x36) zeros2 inb_S36x36_S36x36_0_0 w

/-- A load of the whole of a whole 36×36 memref reads its contents. -/
theorem readAt_whole_A {m : Memref sig .tc .vmem S36x36 .f32} (h : m.IsWhole) (a : Vec F S36x36 .f32) :
    View.readAt (Elt F) m.view rA.toLoadRect (h.unread a) = a := by
  rw [View.readAt_eq_ld, h.read_unread]
  exact View.ld_unit_zero (S := S36x36) zeros2 inb_S36x36_S36x36_0_0 a

/-- A load of the whole of a whole 36×32768 memref reads its contents. -/
theorem readAt_whole_X {m : Memref sig .tc .vmem S36x32768 .f32} (h : m.IsWhole) (x : Vec F S36x32768 .f32) :
    View.readAt (Elt F) m.view rX.toLoadRect (h.unread x) = x := by
  rw [View.readAt_eq_ld, h.read_unread]
  exact View.ld_unit_zero (S := S36x32768) zeros2 inb_S36x32768_S36x32768_0_0 x

/-- First point: the input block kept, the output buffer untouched, the scratch (found at anything) left at `accFirst`. -/
theorem run0_first (c : Dev nD) (i : grid0.Coords) (arg1 : Memref sig .tc .vmem S36x32768 .f32) (harg1 : arg1.IsWhole)
    (arg2 : Memref sig .tc .vmem S36x36 .f32) (harg2 : arg2.IsWhole) (arg3 : Memref sig .tc .vmem S36x36 .f32) (harg3 : arg3.IsWhole)
    (hc0 : cond0_0 i) (hc1 : ¬cond0_1 i) (x : Vec F S36x32768 .f32) (y : Vec F S36x36 .f32) (E : Set ℕ) (K : PUnit → sProp 𝕄) :
    iprop(owns (c : Thread nD τ) arg1 fullShare x ∗ owns (c : Thread nD τ) arg2 fullShare y ∗ (∃ d, owns (c : Thread nD τ) arg3 fullShare d)
        ∗ (iprop(owns (c : Thread nD τ) arg1 fullShare x ∗ owns (c : Thread nD τ) arg2 fullShare y
            ∗ owns (c : Thread nD τ) arg3 fullShare (accFirst x)) -∗ K ⟨⟩))
      ⊢ wp frame (wpE (defs₀ (F := F)) Variants.none c none) E (cc0_gram_kernel i arg1 harg1 arg2 harg2 arg3 harg3) K := by
  simp only [cc0_gram_kernel_eq_skeleton]; unfold cc0_gram_kernel_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  sl_unfold_run_names
  rw [read_store_whole, readAt_whole_X, readCov_store_whole]
  rfl

/-- A middle point: the input block kept, the output buffer untouched, the scratch taken from `a` to `accStep x a`. -/
theorem run0_mid (c : Dev nD) (i : grid0.Coords) (arg1 : Memref sig .tc .vmem S36x32768 .f32) (harg1 : arg1.IsWhole)
    (arg2 : Memref sig .tc .vmem S36x36 .f32) (harg2 : arg2.IsWhole) (arg3 : Memref sig .tc .vmem S36x36 .f32) (harg3 : arg3.IsWhole)
    (hc0 : ¬cond0_0 i) (hc1 : ¬cond0_1 i) (x : Vec F S36x32768 .f32) (y : Vec F S36x36 .f32) (a : Vec F S36x36 .f32) (E : Set ℕ) (K : PUnit → sProp 𝕄) :
    iprop(owns (c : Thread nD τ) arg1 fullShare x ∗ owns (c : Thread nD τ) arg2 fullShare y ∗ owns (c : Thread nD τ) arg3 fullShare a
        ∗ (iprop(owns (c : Thread nD τ) arg1 fullShare x ∗ owns (c : Thread nD τ) arg2 fullShare y
            ∗ owns (c : Thread nD τ) arg3 fullShare (accStep x a)) -∗ K ⟨⟩))
      ⊢ wp frame (wpE (defs₀ (F := F)) Variants.none c none) E (cc0_gram_kernel i arg1 harg1 arg2 harg2 arg3 harg3) K := by
  simp only [cc0_gram_kernel_eq_skeleton]; unfold cc0_gram_kernel_skel
  unfold owns
  iintro ⟨⟨%f0, %hf0, H0⟩, ⟨%f1, %hf1, H1⟩, ⟨%f2, %hf2, H2⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  iexists _; isplitr
  swap; · iexact H2
  ipureintro
  rw [read_store_whole, readAt_whole_X, readAt_whole_A]
  rfl

/-- The last point: the input block kept, the output buffer (found at anything) left at `outLast x a`, the scratch at `accStep x a`. -/
theorem run0_last (c : Dev nD) (i : grid0.Coords) (arg1 : Memref sig .tc .vmem S36x32768 .f32) (harg1 : arg1.IsWhole)
    (arg2 : Memref sig .tc .vmem S36x36 .f32) (harg2 : arg2.IsWhole) (arg3 : Memref sig .tc .vmem S36x36 .f32) (harg3 : arg3.IsWhole)
    (hc0 : ¬cond0_0 i) (hc1 : cond0_1 i) (x : Vec F S36x32768 .f32) (a : Vec F S36x36 .f32) (E : Set ℕ) (K : PUnit → sProp 𝕄) :
    iprop(owns (c : Thread nD τ) arg1 fullShare x ∗ (∃ d, owns (c : Thread nD τ) arg2 fullShare d) ∗ owns (c : Thread nD τ) arg3 fullShare a
        ∗ (iprop(owns (c : Thread nD τ) arg1 fullShare x ∗ owns (c : Thread nD τ) arg2 fullShare (outLast x a)
            ∗ owns (c : Thread nD τ) arg3 fullShare (accStep x a)) -∗ K ⟨⟩))
      ⊢ wp frame (wpE (defs₀ (F := F)) Variants.none c none) E (cc0_gram_kernel i arg1 harg1 arg2 harg2 arg3 harg3) K := by
  simp only [cc0_gram_kernel_eq_skeleton]; unfold cc0_gram_kernel_skel
  unfold owns
  iintro ⟨⟨%f0, %hf0, H0⟩, ⟨%d1, %f1, -, H1⟩, ⟨%f2, %hf2, H2⟩, Hk⟩
  obtain rfl := harg1.eq_unread hf0; obtain rfl := harg3.eq_unread hf2
  sl_exec (disch := first | exact hc0 | exact hc1)
  sl_step
  iapply Hk
  isplitl [H0]
  · iexists _; isplitr; · ipureintro; exact hf0
    iexact H0
  isplitl [H1]
  · iexists _; isplitr
    swap; · iexact H1
    ipureintro
    sl_unfold_run_names
    rw [read_store_whole, readCov_store_whole, readAt_whole_X, readAt_whole_A]
    rfl
  iexists _; isplitr
  swap; · iexact H2
  ipureintro
  sl_unfold_run_names
  rw [read_store_whole, readAt_whole_X, readAt_whole_A]
  rfl

/-! ## The epilogue's value at the ideal instance

There a float is an extended real and the last operation of the epilogue multiplies by the constant zero, so every
element stored into the output buffer is zero, whatever the softmax before it gives. -/

/-- At the ideal instance the epilogue stores zero everywhere: its last operation is a product with the zero constant. -/
theorem outLast_zero (x : Vec Ideal S36x32768 .f32) (a : Vec Ideal S36x36 .f32) (j : S36x36.Idx) :
    outLast (F := Ideal) x a j = 0 := by
  have h : ∀ v : FVec Ideal S36x36 .f32,
      mulf v (broadcast S36x36 (Scalar.ofBits (F := Ideal) .f32 0x00000000#32)) j = 0 := by
    intro v
    rw [ValueIdx.mulf_apply, ValueIdx.broadcast_apply]
    show v j * Ideal.ofBits .f32 0x00000000#32 = 0
    rw [Ideal.ofBits_zero_f32, mul_zero]
  exact h _

end Cert.KernelIdeal.Hand

end
-- ==== Proof.KI.Body1.lean ====
/-
  The final kernel's body (region 1): at every grid point it loads the 36×36 block of the first operand and the point's
  36×32768 block of the second, and stores their matrix product over the whole output block.
-/
import proofs.«181921_j17789754540526_1_alg».proof.Proof.Gen.KernelIdeal.Launch
import proofs.«181921_j17789754540526_1_alg».proof.Proof.Gen.KernelIdeal.Skeleton
import proofs.«181921_j17789754540526_1_alg».proof.Proof.Gen.KernelIdeal.Points
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of the whole-block rectangles, as a constant function. -/
private theorem hz1 : (![0, 0] : Fin 2 → Nat) = fun _ => 0 := funext fun a => by fin_cases a <;> rfl

/-- What the body stores into the output window's buffer, from the two input blocks. -/
def out1 (x0 : Vec F S36x36 .f32) (x1 : Vec F S36x32768 .f32) : Vec F S36x32768 .f32 := k1_pay1 x0 x1

/-- The body's one store goes through the whole-block rectangle, so it covers the output block. -/
private theorem cover1 (p : Vec F S36x32768 .f32) (y : S36x32768.Idx) :
    ∃ pc ∈ ([⟨Rect.unit (s := S36x32768) ![0, 0] S36x32768.size inb_S36x32768_S36x32768_0_0, p⟩] :
        List (View.Piece (Elt F) S36x32768 .f32)), y ∈ pc.1.set :=
  ⟨⟨Rect.unit (s := S36x32768) ![0, 0] S36x32768.size inb_S36x32768_S36x32768_0_0, p⟩, List.mem_singleton_self _,
    View.mem_set_unit_zero (S := S36x32768) hz1 inb_S36x32768_S36x32768_0_0 y⟩

/-- The body on whole staging memrefs: the inputs kept, the output (found at anything) left at `out1` of the inputs. -/
theorem run1 (c : Dev nD) (i : grid1.Coords) (arg1 : Memref sig .tc .vmem S36x36 .f32) (harg1 : arg1.IsWhole)
    (arg2 : Memref sig .tc .vmem S36x32768 .f32) (harg2 : arg2.IsWhole) (arg3 : Memref sig .tc .vmem S36x32768 .f32) (harg3 : arg3.IsWhole)
    (x0 : Vec F S36x36 .f32) (x1 : Vec F S36x32768 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1 x0 x1)) -∗ K ⟨⟩))
      ⊢ wp frame (wpE (defs₀ (F := F)) Variants.none c none) E (cc1_final_kernel i arg1 harg1 arg2 harg2 arg3 harg3) K := by
  simp only [cc1_final_kernel_eq_skeleton]; unfold cc1_final_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store covers the block, so the block reads back as the store's payload,
  refine (View.read_writes_eq_canon _ _ _ (cover1 _)).trans ?_
  rw [View.canon_unit_zero (S := S36x32768) hz1]
  -- and each load through the whole-block rectangle reads the block itself
  have e0 : View.readAt (Elt F) arg1.view (Rect.unit ![0, 0] S36x36.size inb_S36x36_S36x36_0_0).toLoadRect f0
      = View.read (Elt F) arg1.view f0 :=
    (View.readAt_eq_ld _ _ _).trans (View.ld_unit_zero (S := S36x36) hz1 inb_S36x36_S36x36_0_0 _)
  have e1 : View.readAt (Elt F) arg2.view (Rect.unit ![0, 0] S36x32768.size inb_S36x32768_S36x32768_0_0).toLoadRect f1
      = View.read (Elt F) arg2.view f1 :=
    (View.readAt_eq_ld _ _ _).trans (View.ld_unit_zero (S := S36x32768) hz1 inb_S36x32768_S36x32768_0_0 _)
  rw [e0, e1]
  rfl

/-- At the ideal instance a zero first operand gives the zero block: a narrowing format change is the identity on the
    extended reals, the product into the zero accumulator is at each index the plain sum of products, and every summand
    has an entry of the first operand as its left factor, so it is `0 * y = 0` (for every extended real `y`, the
    infinite ones included). -/
theorem out1_zero (x0 : Vec Ideal S36x36 .f32) (x1 : Vec Ideal S36x32768 .f32) (h0 : ∀ j, x0 j = 0) (j : S36x32768.Idx) :
    out1 (F := Ideal) x0 x1 j = 0 := by
  show matmul dot_S36x36_S36x32768_S36x32768_1_0_0_1_n_n none
      (truncf .bf16 (shapeCast S36x36 x0 shapeCasts_S36x36_S36x36) bitsLt_bf16_f32)
      (truncf .bf16 (shapeCast S36x32768 x1 shapeCasts_S36x32768_S36x32768) bitsLt_bf16_f32)
      (constant (F := Ideal) S36x32768 .f32 0x00000000#32) j = 0
  rw [shapeCast_self, shapeCast_self]
  show FloatOps.matmul dot_S36x36_S36x32768_S36x32768_1_0_0_1_n_n none _ _ (constant (F := Ideal) S36x32768 .f32 0x00000000#32) j = 0
  rw [Ideal.matmul_constant_zero_apply]
  refine Finset.sum_eq_zero fun k _ => ?_
  rw [ValueIdx.truncf_apply, h0, zero_mul]

end Cert.KernelIdeal.Hand

end
-- ==== Proof.KI.Data.lean ====
/-
  The proof data of the two kernel regions, and their body obligations.

  Region 0 (the Gram kernel, 32 points along the contraction axis) keeps a 36×36 accumulator in scratch ACROSS grid
  points: after point n it holds `accAt n`, defined by recursion on the point — the first point's value, then one
  accumulation step per point over what the point before left.  The region invariant before point n ≥ 1 therefore
  holds the scratch at `accAt (n - 1)` (before the first point: at anything), beside the other scoped buffers the
  pipeline does not stage and the generator register, both untouched.  The output window is idle at every point but
  the last, where the epilogue stores `outLast` of the last block and the accumulator found.

  Region 1 (the final product, 32 points along the output's columns) keeps nothing between points: its 36×36 operand is
  fetched once and found in place afterwards, the 36×32768 operand is fetched at every point, and the output block is
  `out1` of the two.
-/
import proofs.«181921_j17789754540526_1_alg».proof.Proof.KI.Body0
import proofs.«181921_j17789754540526_1_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! # Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The two branch conditions in closed form over the grid, and where the output window is idle. -/
theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 31 :=
  (by decide +kernel : ∀ t : Fin grid0.N, cond0_1 (grid0.coords t) ↔ t.val = 31)
theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel

/-- The scratch operand as a memref. -/
abbrev scM : Memref sig .tc .vmem S36x36 .f32 := Memref.whole cc0_scratch0

/-- THE ACCUMULATION: what the scratch holds after the body at point `n`. -/
def accAt (c : Dev nD) : (n : ℕ) → n < cfg0.N → Vec F S36x36 .f32
  | 0, hn => accFirst (iblk0 V c 0 ⟨0, hn⟩)
  | n + 1, hn => accStep (iblk0 V c 0 ⟨n + 1, hn⟩) (accAt c n (Nat.lt_of_succ_lt hn))

theorem accAt_zero (c : Dev nD) (t : Fin cfg0.N) (hz : t.val = 0) : accAt V c t.val t.isLt = accFirst (iblk0 V c 0 t) := by
  obtain ⟨n, hn⟩ := t
  cases n with
  | zero => rfl
  | succ n => exact absurd hz (Nat.succ_ne_zero n)

theorem accAt_pos (c : Dev nD) (t : Fin cfg0.N) (hz : t.val ≠ 0) :
    accAt V c t.val t.isLt = accStep (iblk0 V c 0 t) (accAt V c (t.val - 1) (Nat.lt_of_le_of_lt (Nat.sub_le _ _) t.isLt)) := by
  obtain ⟨n, hn⟩ := t
  cases n with
  | zero => exact absurd rfl hz
  | succ n => rfl

/-- The scoped buffers that are neither a staging buffer of region 0 nor its scratch (region 1's staging buffers), each at
    some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the scratch split off as a memref owned at some contents. -/
theorem PhiA0_eq (c : Dev nD) :
    (Pipeline.ΦA spec0 c : sProp 𝕄)
      = iprop(iprop((∃ d, owns (c : Thread nD τ) scM fullShare d) ∗ rest0 c) ∗ (∃ r, prngReg c r)) := by
  unfold Pipeline.ΦA rest0; rw [scopedRest0_eq]; simp only [scM, owns_whole]; rfl

/-- The region invariant before position `n`: before the first point the class's; afterwards the scratch at what the point
    before left, the other scoped buffers and the generator register at something. -/
def Phi0 (c : Dev nD) : (n : ℕ) → n ≤ cfg0.N → sProp 𝕄
  | 0, _ => Pipeline.ΦA spec0 c
  | n + 1, hn => iprop(iprop(owns (c : Thread nD τ) scM fullShare (accAt V c n hn) ∗ rest0 c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM fullShare (accAt V c n hn) ∗ rest0 c) ∗ (∃ r, prngReg c r)) := rfl

theorem Phi0_pos (c : Dev nD) (n : ℕ) (h : n ≤ cfg0.N) (hz : n ≠ 0) :
    Phi0 V c n h = iprop(iprop(owns (c : Thread nD τ) scM fullShare (accAt V c (n - 1) (by omega)) ∗ rest0 c) ∗ (∃ r, prngReg c r)) := by
  cases n with
  | zero => exact absurd rfl hz
  | succ n => rfl

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => outLast (iblk0 V c 0 t) (accAt V c (t.val - 1) (Nat.lt_of_le_of_lt (Nat.sub_le _ _) t.isLt))
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) :
    (dat0 V c).after 1 t = outLast (iblk0 V c 0 t) (accAt V c (t.val - 1) (Nat.lt_of_le_of_lt (Nat.sub_le _ _) t.isLt)) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 2000000 in
/-- The body at any point: the closed forms say which case the point is in; the invariant hands the run the scratch at what
    the point before left (at anything at the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  have hN : t.val < 32 := lt_of_lt_of_eq t.isLt (show cfg0.N = 32 from N_0)
  by_cases h1 : t.val = 31
  · have hc1 : cond0_1 (grid0.coords t) := (hcond0_1 t).mpr h1
    have hc0 : ¬cond0_0 (grid0.coords t) := fun h => by have := (hcond0_0 t).mp h; omega
    have hz : t.val ≠ 0 := by omega
    rw [show (dat0 V c).leavesExact 1 t = owns (c : Thread nD τ) (st0_1 t) fullShare ((dat0 V c).after 1 t) from by
      unfold Dat.leavesExact; rw [liveAt0_1 t hc1], after0_1]
    rw [Phi0_castSucc V c t, Phi0_pos V c _ _ hz, accAt_pos V c t hz]
    iintro ⟨⟨⟨HS, Hrest⟩, Hg⟩, Ho, ⟨%d0, H0⟩, ⟨%d1, H1⟩⟩
    iapply (run0_last c (grid0.coords t) _ _ _ _ _ _ hc0 hc1 (iblk0 V c 0 t) _ Set.univ _)
    isplitl [H0]; · iexact H0
    isplitl [H1]; · iexists _; iexact H1
    isplitl [HS]; · iexact HS
    iintro ⟨H0, H1, HS⟩
    isplitl [HS Hrest Hg]
    · isplitl [HS Hrest]
      · isplitl [HS]; · iexact HS
        iexact Hrest
      iexact Hg
    isplitl [Ho]; · iexact Ho
    isplitl [H0]; · iexact H0
    iexact H1
  · have hc1 : ¬cond0_1 (grid0.coords t) := fun h => h1 ((hcond0_1 t).mp h)
    rw [Dat.leavesExact_idle (dat0 V c) 1 t (idleAt0_1 t hc1) (noFlush0_1 t hc1)]
    by_cases hz : t.val = 0
    · have hc0 : cond0_0 (grid0.coords t) := (hcond0_0 t).mpr hz
      rw [Phi0_castSucc V c t, Phi0_zero V c _ _ hz, PhiA0_eq, accAt_zero V c t hz]
      iintro ⟨⟨⟨HS, Hrest⟩, Hg⟩, Ho, ⟨%d0, H0⟩, ⟨%d1, H1⟩⟩
      iapply (run0_first c (grid0.coords t) _ _ _ _ _ _ hc0 hc1 (iblk0 V c 0 t) _ Set.univ _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      iexists _; iexact H1
    · have hc0 : ¬cond0_0 (grid0.coords t) := fun h => hz ((hcond0_0 t).mp h)
      rw [Phi0_castSucc V c t, Phi0_pos V c _ _ hz, accAt_pos V c t hz]
      iintro ⟨⟨⟨HS, Hrest⟩, Hg⟩, Ho, ⟨%d0, H0⟩, ⟨%d1, H1⟩⟩
      iapply (run0_mid c (grid0.coords t) _ _ _ _ _ _ hc0 hc1 (iblk0 V c 0 t) _ _ Set.univ _)
      isplitl [H0]; · iexact H0
      isplitl [H1]; · iexact H1
      isplitl [HS]; · iexact HS
      iintro ⟨H0, H1, HS⟩
      isplitl [HS Hrest Hg]
      · isplitl [HS Hrest]
        · isplitl [HS]; · iexact HS
          iexact Hrest
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), PhiA0_eq]
  iintro ⟨⟨HS, Hrest⟩, Hg⟩
  isplitl [HS Hrest]
  · isplitl [HS]; · iexists _; iexact HS
    iexact Hrest
  iexact Hg

/-! # Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (run1 c (grid1.coords t) _ _ _ _ _ _ (iblk1 V c 0 t) (iblk1 V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Regs.lean ====
/-
  The two kernel regions as segments of the program's run, the run itself, and the frame.

  Between two items of the program a core holds every unscoped buffer whole at a valuation: the launch contents, then the
  reshape's result added (`V1`), then region 0's result array at what its one write-back leaves (`W2`), then region 1's
  result array at what its 32 write-backs leave (`W3`), then the closing reshape's result added.  Beside the buffers
  ride the generator register at some state and the core owing nothing.

  A region is entered by splitting its windows' arrays out of the unscoped buffers and left by putting them back at the
  contents the pipeline's write-backs leave; the generator register and the scoped buffers no window stages pass into the
  region invariant and out again — for region 0 with the scratch accumulator's named contents forgotten at the exit.
-/
import proofs.«181921_j17789754540526_1_alg».proof.Proof.KI.Data
import proofs.«181921_j17789754540526_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Region 0's entry contents, read at the TensorCore's references. -/
abbrev VV1 : (c : Dev nD) → (b : Ref sig .tc) → Buf (Elt F) ((c : Thread nD τ).loc b) := fun c b => V1 m c b

/-- What region 0's one write-back leaves in its result array. -/
def o2 (c : Dev nD) : Buf (Elt F) ((c : Thread nD τ).loc main_v1) := (dat0 (VV1 m) c).arrAt 1 cfg0.N

/-- The contents after region 0. -/
def W2 (c : Dev nD) : Valuation τ sig (Elt F) := Function.update (V1 m c) main_v1 (o2 m c)

/-- Region 1's entry contents, read at the TensorCore's references. -/
abbrev VV2 : (c : Dev nD) → (b : Ref sig .tc) → Buf (Elt F) ((c : Thread nD τ).loc b) := fun c b => W2 m c b

/-- What region 1's write-backs leave in its result array. -/
def o3 (c : Dev nD) : Buf (Elt F) ((c : Thread nD τ).loc main_v2) := (dat1 (VV2 m) c).arrAt 2 cfg1.N

/-- The contents after region 1. -/
def W3 (c : Dev nD) : Valuation τ sig (Elt F) := Function.update (W2 m c) main_v2 (o3 m c)

abbrev VV3 : (c : Dev nD) → (b : Ref sig .tc) → Buf (Elt F) ((c : Thread nD τ).loc b) := fun c b => W3 m c b

/-- What the regions leave, as the family the conditional frame is stated over: read at item 2 off `W2`, else off `W3`. -/
def outs : Outs (F := F) := fun J r c => if J = 2 then W2 m c r else W3 m c r

theorem W2_same (c : Dev nD) : W2 m c main_v1 = o2 m c := by unfold W2; exact Function.update_self ..
theorem W3_same (c : Dev nD) : W3 m c main_v2 = o3 m c := by unfold W3; exact Function.update_self ..
theorem W2_of_ne (c : Dev nD) (b : Ref sig .tc) (hb : b ≠ main_v1) : W2 m c b = V1 m c b := by
  unfold W2; exact Function.update_of_ne (StableHlo.devRef_ne_of_ne hb) ..
theorem W3_of_ne (c : Dev nD) (b : Ref sig .tc) (hb : b ≠ main_v2) : W3 m c b = W2 m c b := by
  unfold W3; exact Function.update_of_ne (StableHlo.devRef_ne_of_ne hb) ..

theorem V2_eq (c : Dev nD) : V2 m (outs m) c = W2 m c := by
  show Function.update (V1 m c) main_v1 (outs m 2 main_v1 c) = W2 m c
  rw [show outs m 2 main_v1 c = W2 m c main_v1 from if_pos rfl, W2_same]; rfl
theorem V3_eq (c : Dev nD) : V3 m (outs m) c = W3 m c := by
  show Function.update (V2 m (outs m) c) main_v2 (outs m 3 main_v2 c) = W3 m c
  rw [V2_eq, show outs m 3 main_v2 c = W3 m c main_v2 from if_neg (by decide), W3_same]; rfl

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (VV1 m) c
  | ⟨1, _⟩ => fun c => dat1 (VV2 m) c

abbrev 𝒱₀ : Variants := Variants.none
abbrev L : GSem nD τ sig → Finset Unit := fun _ => ∅
abbrev lv : GSem nD τ sig → Unit → ℕ := fun _ _ => 0

/-- What rides beside the buffers through every segment: the generator register at some state and the core owing nothing. -/
abbrev R (c : Dev nD) : sProp 𝕄 := iprop((∃ r, prngReg c r) ∗ ∃ W, owes (c : Thread nD τ) (0 : CellTallies nD τ sig Unit) W)

/-- At region 0's exit each of its arrays holds what the pipeline leaves, and every other buffer what it held at entry. -/
theorem hF0 (c : Dev nD) (w : Fin cfg0.W) : (dat0 (VV1 m) c).arrAt w cfg0.N = VV2 m c (Pipeline.arrRef spec0 w) := by
  match w with
  | ⟨0, _⟩ => exact ((dat0 (VV1 m) c).arrAt_in 0 rfl _).trans ((A_eq0 (VV1 m) c 0).trans (W2_of_ne m c main_v0 (by decide)).symm)
  | ⟨1, _⟩ => exact (W2_same m c).symm
theorem hrest0 (c : Dev nD) : ∀ b, b ∉ Finset.univ.image (Pipeline.arrRef spec0) → VV2 m c b = VV1 m c b :=
  fun b hb => W2_of_ne m c b fun e => hb (Finset.mem_image.mpr ⟨1, Finset.mem_univ _, e.symm⟩)

theorem hF1 (c : Dev nD) (w : Fin cfg1.W) : (dat1 (VV2 m) c).arrAt w cfg1.N = VV3 m c (Pipeline.arrRef spec1 w) := by
  match w with
  | ⟨0, _⟩ => exact ((dat1 (VV2 m) c).arrAt_in 0 rfl _).trans ((A_eq1 (VV2 m) c 0).trans (W3_of_ne m c main_v1 (by decide)).symm)
  | ⟨1, _⟩ => exact ((dat1 (VV2 m) c).arrAt_in 1 rfl _).trans ((A_eq1 (VV2 m) c 1).trans (W3_of_ne m c main_v0 (by decide)).symm)
  | ⟨2, _⟩ => exact (W3_same m c).symm
theorem hrest1 (c : Dev nD) : ∀ b, b ∉ Finset.univ.image (Pipeline.arrRef spec1) → VV3 m c b = VV2 m c b :=
  fun b hb => W3_of_ne m c b fun e => hb (Finset.mem_image.mpr ⟨2, Finset.mem_univ _, e.symm⟩)

/-! ## The regions as segments -/

set_option backward.isDefEq.respectTransparency.types false in
/-- REGION 0 over the thread state: entered from every unscoped buffer at `V1`, left at `W2`. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (VV1 m) c)
    unfold Pipeline.ΦA
    iintro ⟨Hp, -, Hr⟩
    isplitl [Hr]; · iexact Hr
    iexact Hp
  hout c := by
    rw [Pipeline.ownSems0_none]
    refine (hout0 (VV1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (VV2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VV2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VV2 m c) (VV3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side: the ghost state, the first thread state, the last -/

abbrev u₀ : UR sig nD τ := initOf (Pipeline.cells cfgs cellOf_inj) (Pipeline.launchToks cfgs cellOf_inj)

theorem hu₀ : (ownU u₀ : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals a core beside its buffers makes the riding state: the generator register, and nothing owed. -/
theorem hE0_core (ρ : Dev nD → PrngReg) (c : Dev nD) :
    iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp 𝕄))
      ⊢ (R (F := F) c : sProp 𝕄) := by
  iintro ⟨-, HO, -, Hp, -⟩
  isplitl [Hp]; · iexists _; iexact Hp
  iexists ∅; iexact HO

theorem hE0 (ρ : Dev nD → PrngReg) :
    iprop((bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  have hmono : (bigSep Finset.univ fun c : Dev nD => iprop(unscopedSems0 c ∗ owes (c : Thread nD τ) ((fun _ => 0 : Dev nD → CellTallies nD τ sig Unit) c) ∅
        ∗ Pipeline.launchCred (fun _ => 0 : Dev nD → CellTallies nD τ sig Unit) c ∗ prngReg c (ρ c) ∗ (BI.emp : sProp 𝕄)))
      ⊢ (bigSep Finset.univ (fun c : Dev nD => R (F := F) c) : sProp 𝕄) :=
    bigSep_mono fun c _ => hE0_core ρ c
  iintro ⟨H, -⟩
  imodintro
  iapply hmono
  iexact H

theorem hE2 (c : Dev nD) : R (F := F) c ⊢ (iprop(∃ W, owes (c : Thread nD τ) (0 : CellTallies nD τ sig Unit) W) : sProp 𝕄) := by
  iintro ⟨-, HO⟩; iexact HO

/-! ## The frame -/

/-- THE FRAME: every weakly fair execution of the program terminates, nothing faulting, the argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_cond m emb₁ () 𝒱₀ L lv (fun _ _ => rfl) ρ (outs m) (pdats m) (fun _ => 0) (fun _ => BI.emp) u₀ (hu₀ (F := F))
    (fun _ c => R c) (hE0 (F := F) ρ) (hE2 (F := F))
    (reg0 m) (fun _ => .rfl) (fun c => by rw [V2_eq]; exact .rfl)
    (reg1 m) (fun c => by rw [V2_eq]; exact .rfl) (fun c => by rw [V3_eq]; exact .rfl)

end Cert.KernelIdeal.Hand

end
-- ==== Proof.KI.RunCond.lean ====
/-
  The program's run with its RESULT array named, not only its argument kept.

  The frame says the argument array ends as launched.  The value claim needs more: what the result array holds at the
  end.  The last thread state of the run holds every unscoped buffer at the last valuation `V4` — the launch contents
  folded through the reshape, the two regions' write-backs and the closing reshape —, so reading it against the final
  state at the result's reference names the result: it is `V4` there.
-/
import proofs.«181921_j17789754540526_1_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- THE RUN WITH ITS RESULT NAMED. Under the hypotheses of the conditional frame (per region a segment record entered from the
    thread state before it and left at the one after it), every weakly fair execution of the program terminates and every
    final memory holds the RESULT array at the last valuation's contents and the argument as launched: the last thread
    state holds every unscoped buffer at `V4`, which is read against the final state at both references. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v3) = V4 m outs c main_v3
      ∧ r.2.mem ((c.tc : Thread nD τ).loc main_arg0) = m ((c.tc : Thread nD τ).loc main_arg0)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, (hpost0 c).trans (hpre1 c), hpost1 c, sep_mono .rfl (hE2 c)⟩)
    (hinit := ?_) (QY := fun c s => s.mem ((c.tc : Thread nD τ).loc main_v3) = V4 m outs c main_v3
      ∧ s.mem ((c.tc : Thread nD τ).loc main_arg0) = m ((c.tc : Thread nD τ).loc main_arg0))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨h (Proc.devRef .tc main_v3) (Finset.mem_filter.mpr ⟨StableHlo.devRef_mem_tcRefs main_v3, by decide⟩),
        (h (Proc.devRef .tc main_arg0) (Finset.mem_filter.mpr ⟨StableHlo.devRef_mem_tcRefs main_arg0, by decide⟩)).trans (V4_main_arg0 m outs c)⟩
    · iexact HSI

end Cert.KernelIdeal.Hand

end
-- ==== Proof.KIValue.lean ====
/-
  At the ideal instance the kernel program's result array is zero everywhere.

  Region 0's epilogue stores  softmax(…) · 0  into its 36×36 output block, and on the extended reals  x · 0 = 0  for every
  x, so its one write-back (the block is the whole array) leaves the zero matrix.  Region 1 multiplies that matrix into the
  argument's blocks: every term of every inner product is  0 · y = 0, so each of its 32 column blocks is written back as
  zeros, and the blocks tile the 36×1048576 result (column j lies in block j / 32768).  The closing reshape re-labels the
  indices of a constant array.  No finiteness of the input is used anywhere.
-/
import proofs.«181921_j17789754540526_1_alg».proof.Proof.KI.Regs
import proofs.«181921_j17789754540526_1_alg».proof.Proof.KI.RunCond
import Idealize.ShloMosaic.Lib.Pipeline.Value
import Idealize.ShloMosaic.Lib.StableHlo.Run
import Idealize.ShloMosaic.PureOps.Ideal.Laws
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-! ## Region 0's result -/

/-- Region 0's output window has ONE block, at block index (0, 0), at every point. -/
theorem idx0_1 : ∀ t : Fin cfg0.N, win0_1.index t (0 : Fin 2) = 0 ∧ win0_1.index t (1 : Fin 2) = 0 :=
  (by decide +kernel : ∀ t : Fin grid0.N, _)

/-- An index of the array is in point `t`'s block iff each coordinate is in the block's range on its axis. -/
theorem mem_blk0_1 (t : Fin cfg0.N) (i : S36x36.Idx) :
    i ∈ ((cfg0.win 1).blk t).view.set ↔ ∀ a : Fin 2, win0_1.index t a * S36x36.size a ≤ (i a).val ∧ (i a).val < win0_1.index t a * S36x36.size a + S36x36.size a := by
  show i ∈ ((View.whole main_v1).slice (win0_1.rect t)).set ↔ _
  rw [View.set_slice_whole, Rect.mem_set_unit]
  exact Iff.rfl

/-- Region 0 leaves the zero matrix in its result array. -/
theorem o2_zero (c : Dev nD) : o2 m c = fun _ => (0 : EReal) := by
  unfold o2
  refine (dat0 (VV1 m) c).arrAt_eq_of_cover 1 (fun _ => (0 : EReal)) (fun t _ => ?_) (fun i => ?_)
  · show (cfg0.win 1).cut (grid0.coords t) ((dat0 (VV1 m) c).after 1 t) = _
    rw [after0_1]
    funext y
    exact outLast_zero _ _ y
  · refine ⟨⟨31, by decide⟩, (flush0_1 _).mpr rfl, ?_⟩
    rw [mem_blk0_1]
    obtain ⟨e0, e1⟩ := idx0_1 ⟨31, by decide⟩
    intro a
    match a with
    | ⟨0, _⟩ => show win0_1.index ⟨31, _⟩ (0 : Fin 2) * 36 ≤ (i 0).val ∧ (i 0).val < win0_1.index ⟨31, _⟩ (0 : Fin 2) * 36 + 36; have h0 : (i 0).val < 36 := (i 0).isLt; omega
    | ⟨1, _⟩ => show win0_1.index ⟨31, _⟩ (1 : Fin 2) * 36 ≤ (i 1).val ∧ (i 1).val < win0_1.index ⟨31, _⟩ (1 : Fin 2) * 36 + 36; have h1 : (i 1).val < 36 := (i 1).isLt; omega

/-! ## Region 1's result -/

/-- Region 1's output window at point `t` is the block at row block 0, column block `t`. -/
theorem idx1_2 : ∀ t : Fin cfg1.N, win1_2.index t (0 : Fin 2) = 0 ∧ win1_2.index t (1 : Fin 2) = t.val :=
  (by decide +kernel : ∀ t : Fin grid1.N, _)

theorem mem_blk1_2 (t : Fin cfg1.N) (i : S36x1048576.Idx) :
    i ∈ ((cfg1.win 2).blk t).view.set ↔ ∀ a : Fin 2, win1_2.index t a * S36x32768.size a ≤ (i a).val ∧ (i a).val < win1_2.index t a * S36x32768.size a + S36x32768.size a := by
  show i ∈ ((View.whole main_v2).slice (win1_2.rect t)).set ↔ _
  rw [View.set_slice_whole, Rect.mem_set_unit]
  exact Iff.rfl

/-- The 36×36 operand's block, as region 1 finds it, is zero: it is read off region 0's result array. -/
theorem iblk1_0_zero (c : Dev nD) (t : Fin cfg1.N) (j : S36x36.Idx) : iblk1 (VV2 m) c 0 t j = (0 : EReal) := by
  unfold iblk1
  rw [show VV2 m c (Pipeline.arrRef spec1 0) = o2 m c from W2_same m c, o2_zero]
  rfl

/-- Region 1 leaves zeros in its result array. -/
theorem o3_zero (c : Dev nD) : o3 m c = fun _ => (0 : EReal) := by
  unfold o3
  refine (dat1 (VV2 m) c).arrAt_eq_of_cover 2 (fun _ => (0 : EReal)) (fun t _ => ?_) (fun i => ?_)
  · show (cfg1.win 2).cut (grid1.coords t) ((dat1 (VV2 m) c).after 2 t) = _
    rw [after1_2]
    funext y
    exact out1_zero _ _ (iblk1_0_zero m c t) y
  · have hi1 : (i 1).val < 1048576 := (i 1).isLt
    have hi0 : (i 0).val < 36 := (i 0).isLt
    have hN : cfg1.N = 32 := N_1
    refine ⟨⟨(i 1).val / 32768, by omega⟩, flush1_2 _, ?_⟩
    rw [mem_blk1_2]
    obtain ⟨e0, e1⟩ := idx1_2 ⟨(i 1).val / 32768, by omega⟩
    intro a
    match a with
    | ⟨0, _⟩ => show win1_2.index ⟨(i 1).val / 32768, _⟩ (0 : Fin 2) * 36 ≤ (i 0).val ∧ (i 0).val < win1_2.index ⟨(i 1).val / 32768, _⟩ (0 : Fin 2) * 36 + 36; omega
    | ⟨1, _⟩ => show win1_2.index ⟨(i 1).val / 32768, _⟩ (1 : Fin 2) * 32768 ≤ (i 1).val ∧ (i 1).val < win1_2.index ⟨(i 1).val / 32768, _⟩ (1 : Fin 2) * 32768 + 32768; simp only at e1; omega

/-! ## The program's result -/

/-- The last valuation at the result's reference: the closing reshape of region 1's result, which is zero. -/
theorem V4_v3_zero (c : Dev nD) : V4 m (outs m) c main_v3 = fun _ => (0 : EReal) := by
  have e : V4 m (outs m) c main_v3 = shapeCast S1x36x1048576 (W3 m c main_v2) shapeCasts_S36x1048576_S1x36x1048576 := by
    show StableHlo.after hostOps2 (V3 m (outs m) c) (Proc.devRef .tc main_v3) = _
    rw [V3_eq]
    after_results
    rfl
  rw [e, W3_same, o3_zero]
  rfl

/-- Every weakly fair execution of the idealized kernel program ends with the result array zero everywhere and the
    argument as launched. -/
theorem run_zero (ρ : Dev nD → PrngReg) :
    θ_run defs (onTc (τ := τ) (main (F := Ideal))) ⟨m, fun _ => 0, ρ⟩ (fun r => ∀ c : Dev nD,
      r.2.mem ((c.tc : Thread nD τ).loc main_v3) = (fun _ => (0 : EReal))
      ∧ r.2.mem ((c.tc : Thread nD τ).loc main_arg0) = m ((c.tc : Thread nD τ).loc main_arg0)) :=
  (θ_run defs _ _).mono (fun _ h c => ⟨(h c).1.trans (V4_v3_zero m c), (h c).2⟩)
    (run_cond m emb₁ () 𝒱₀ L lv (fun _ _ => rfl) ρ (outs m) (pdats m) (fun _ => 0) (fun _ => BI.emp) u₀ (hu₀ (F := Ideal))
      (fun _ c => R c) (hE0 (F := Ideal) ρ) (hE2 (F := Ideal))
      (reg0 m) (fun _ => .rfl) (fun c => by rw [V2_eq]; exact .rfl)
      (reg1 m) (fun c => by rw [V2_eq]; exact .rfl) (fun c => by rw [V3_eq]; exact .rfl))

end Cert.KernelIdeal.HandValue

end
-- ==== Proof.RefZero.lean ====
/-
  The reference at the ideal instance ends in the zero array.

  Its last stages are  t5 = softmax(…) · 0,  ans = t5 · t1  (a matrix product over the 36 rows) and a re-labelling of
  the axes.  On the extended reals  x · 0 = 0  for EVERY x, so t5 is the zero matrix whatever the softmax is, every term of
  every inner product is  0 · y = 0, and the result is zero at every index.  No finiteness of the input is used.
-/
import proofs.«181921_j17789754540526_1_alg».proof.Defs
import proofs.«181921_j17789754540526_1_alg».proof.Proof.Gen.ReferenceIdeal.Run
import Idealize.ShloMosaic.PureOps.Ideal.Laws
import Idealize.ShloMosaic.Lib.ValueIdx
import Idealize.ShloMosaic.Lib.Pipeline.Value

noncomputable section

open Idealize.ShloMosaic Idealize.ShloMosaic.TcCoe Idealize.SL.Sem

namespace Cert.ReferenceIdeal.RefZero

open Cert.ReferenceIdeal Cert.ReferenceIdeal.Gen

/-- The product with the zero matrix, re-read as a 36 × 36 matrix, is zero at every index: a re-reading of the shape
    only picks an entry of the product, that entry is  x · 0  for some entry x of the left operand, and on the extended
    reals  x · 0 = 0  for every x, the infinities included. -/
theorem lhs_zero [Cert.ReferenceIdeal.Facts] (X : FVec Ideal S1x36x36 .f32) (j : S36x36.Idx) :
    shapeCast S36x36 (mulf X (broadcastInDim S1x36x36 ![] bcast_S_S1x36x36 (constant (F := Ideal) S_ .f32 0x00000000#32)))
      shapeCasts_S1x36x36_S36x36 j = 0 := by
  show X _ * Ideal.ofBits .f32 0x00000000#32 = 0
  rw [Ideal.ofBits_zero_f32, mul_zero]

/-- The matrix product of that zero matrix with ANY matrix Y, with a leading unit axis put in front, is zero at every
    index: the entry at an index is the sum over the contraction index of products whose left factor is an entry of the
    zero matrix, each term is  0 · y = 0  for every y, and the leading unit axis only re-labels the index. Which entries
    the contraction pairs plays no part. -/
theorem result_zero [Cert.ReferenceIdeal.Facts] (X : FVec Ideal S1x36x36 .f32) (Y : FVec Ideal S36x1048576 .f32) :
    broadcastInDim S1x36x1048576 ![1, 2] bcast_S36x1048576_S1x36x1048576_1_2
      (Host.dotGeneral (F := Ideal) dot_S36x36_S36x1048576_S36x1048576_1_0_0_1_n_n none
        (shapeCast _ (mulf X (broadcastInDim S1x36x36 ![] bcast_S_S1x36x36 (constant (F := Ideal) S_ .f32 0x00000000#32)))
          shapeCasts_S1x36x36_S36x36) Y)
    = fun _ => (0 : EReal) := by
  funext i
  show Host.dotGeneral (F := Ideal) dot_S36x36_S36x1048576_S36x1048576_1_0_0_1_n_n none _ Y _ = 0
  simp only [Host.dotGeneral]
  rw [Ideal.dotGeneral_apply]
  exact Finset.sum_eq_zero fun k _ => by rw [lhs_zero, zero_mul]

/-- Every weakly fair execution of the reference from `m` ends with the result array zero everywhere and the argument
    as launched. -/
theorem run_zero [Cert.ReferenceIdeal.Facts] (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v21) = (fun _ => (0 : EReal))
        ∧ r.2.mem ((c.tc : Thread nD τ).loc main_arg0) = m ((c.tc : Thread nD τ).loc main_arg0)) :=
  (θ_run Cert.ReferenceIdeal.defs _ _).mono (fun _ h c => ⟨(h c).1.trans (result_zero _ _), (h c).2⟩)
    (Cert.ReferenceIdeal.Value.run (F := Ideal) m ρ)

end Cert.ReferenceIdeal.RefZero

end
-- ==== Proof.lean ====
/-
  The certificate: the Pallas program (a Gram-matrix kernel with a softmax epilogue, then a second kernel multiplying the
  result into the input) against its jnp reference, over the extended reals.

  Both programs compute  t5 = softmax(t1·t1ᵀ / 8192) · 0  and then  t5 · t1.  On the extended reals  x · 0 = 0  for EVERY x
  (the infinities included), so t5 is the zero matrix on both sides whatever the softmax is, every term of every inner
  product of the second product is  0 · y = 0, and both results are the zero array of shape 1×36×1048576.  The equality
  therefore needs no finiteness of the input, and the precondition is never opened.

  * The frames of the two kernel programs (word level and idealized; one text up to the namespace, the hand modules generic
    in the instance): the program is a reshape, two kernel regions and a reshape.  Region 0 carries a 36×36 accumulator in
    scratch across its 32 grid points, so its region invariant names the accumulator's contents point by point, by
    recursion; its output window is idle until the last point.  Region 1 keeps nothing between points.  Each region is a
    segment of the run entered from and left at "every unscoped buffer at a valuation", and the run is the library's
    several-regions launch (Proof/KI/*, Proof/K/*).
  * The idealized kernel's result is zero (Proof/KIValue.lean) and so is the reference's (Proof/RefZero.lean, over the
    reference's generated run); the reference's frame is its run with the result dropped.
  * The idealization rewrote no operation, so `preserves` is `True`.
-/
import proofs.«181921_j17789754540526_1_alg».proof.Defs
import proofs.«181921_j17789754540526_1_alg».proof.Proof.K.Regs
import proofs.«181921_j17789754540526_1_alg».proof.Proof.KI.Regs
import proofs.«181921_j17789754540526_1_alg».proof.Proof.KIValue
import proofs.«181921_j17789754540526_1_alg».proof.Proof.RefZero
import proofs.«181921_j17789754540526_1_alg».proof.Proof.Gen.Kernel
import proofs.«181921_j17789754540526_1_alg».proof.Proof.Gen.KernelIdeal
import proofs.«181921_j17789754540526_1_alg».proof.Proof.Gen.ReferenceIdeal
import proofs.«181921_j17789754540526_1_alg».proof.Proof.Gen.Pre_finite_inputs
import Idealize.ShloMosaic.Adequacy
import Idealize.ShloMosaic.Init

noncomputable section

namespace Cert.Proof

open Idealize.ShloMosaic Idealize.SL.Sem

/-- The word-level kernel program runs to the end, faults nowhere, and leaves its argument as launched. -/
theorem frame_k : Cert.frame_Kernel := fun m ρ _ => Cert.Kernel.Hand.frame (F := Bits) m ρ

/-- So does the idealized one. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.RefZero.run_zero m ρ)

/-- The ideal pass rewrote nothing. -/
theorem preserves : Cert.preserves_Kernel_KernelIdeal := trivial

/-- Both idealized programs end with the zero array, from any memories at all. -/
theorem algebraic : Cert.algebraic_KernelIdeal_ReferenceIdeal := fun m ρ m' ρ' _ _ =>
  ⟨fun _ => fun _ => (0 : EReal), Cert.KernelIdeal.HandValue.run_zero m ρ, Cert.ReferenceIdeal.RefZero.run_zero m' ρ'⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
